-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S1024x128x128 : Shape := ⟨3, ![1024, 128, 128]⟩
abbrev S1024x256x256 : Shape := ⟨3, ![1024, 256, 256]⟩
abbrev S8x128x128 : Shape := ⟨3, ![8, 128, 128]⟩
abbrev S8x256x256 : Shape := ⟨3, ![8, 256, 256]⟩
abbrev S8x128x128x1 : Shape := ⟨4, ![8, 128, 128, 1]⟩
abbrev S8x128x128x2 : Shape := ⟨4, ![8, 128, 128, 2]⟩
abbrev S8x128x256 : Shape := ⟨3, ![8, 128, 256]⟩
abbrev S8x128x1x256 : Shape := ⟨4, ![8, 128, 1, 256]⟩
abbrev S8x128x2x256 : Shape := ⟨4, ![8, 128, 2, 256]⟩
abbrev S16x64x256x256 : Shape := ⟨4, ![16, 64, 256, 256]⟩

abbrev nBuf : Space → Nat
  | .hbm => 10
  | .vmem => 10
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S1024x128x128, .f32⟩
  | .hbm, ⟨5, _⟩ => ⟨S1024x128x128, .f32⟩
  | .hbm, ⟨6, _⟩ => ⟨S1024x128x128, .f32⟩
  | .hbm, ⟨7, _⟩ => ⟨S1024x128x128, .f32⟩
  | .hbm, ⟨8, _⟩ => ⟨S1024x256x256, .f32⟩
  | .hbm, ⟨9, _⟩ => ⟨S16x64x256x256, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x256x256, .f32⟩
  | .local _ .vmem, ⟨9, _⟩ => ⟨S8x256x256, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x64x128x128_S1024x128x128 : S16x64x128x128.ShapeCasts S1024x128x128
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  shapeCasts_S8x128x128_S8x128x128x1 : S8x128x128.ShapeCasts S8x128x128x1
  concatenates_S8x128x128x1_S8x128x128x1_S8x128x128x2_d3 : Shape.Concatenates [S8x128x128x1, S8x128x128x1] S8x128x128x2 3
  shapeCasts_S8x128x128x2_S8x128x256 : S8x128x128x2.ShapeCasts S8x128x256
  shapeCasts_S8x128x256_S8x128x1x256 : S8x128x256.ShapeCasts S8x128x1x256
  concatenates_S8x128x1x256_S8x128x1x256_S8x128x2x256_d2 : Shape.Concatenates [S8x128x1x256, S8x128x1x256] S8x128x2x256 2
  shapeCasts_S8x128x2x256_S8x256x256 : S8x128x2x256.ShapeCasts S8x256x256
  inb_S8x256x256_S8x256x256_0_0_0 : ∀ a, (![0, 0, 0] : Fin 3 → Nat) a + S8x256x256.size a ≤ S8x256x256.size a
  h_S8x256x256 : 0 < S8x256x256.numel
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x128.size a ≤ S1024x128x128.size a
  hwx0_0 : ∀ i : grid0.Coords, EltTy.bits .f32 = 32 ∨ (Rect.block (s := S1024x128x128) S8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S1024x128x128.size a
  hwx0_1 : ∀ i : grid0.Coords, EltTy.bits .f32 = 32 ∨ (Rect.block (s := S1024x128x128) S8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S1024x128x128.size a
  hwx0_2 : ∀ i : grid0.Coords, EltTy.bits .f32 = 32 ∨ (Rect.block (s := S1024x128x128) S8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S1024x128x128.size a
  hwx0_3 : ∀ i : grid0.Coords, EltTy.bits .f32 = 32 ∨ (Rect.block (s := S1024x128x128) S8x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S1024x256x256.size a
  hwx0_4 : ∀ i : grid0.Coords, EltTy.bits .f32 = 32 ∨ (Rect.block (s := S1024x256x256) S8x256x256.size (cc0_transform_4 i) (hinb0_4 i)).WholeWords (EltTy.packing .f32)

variable [Facts₀]

abbrev win0_0 : Pipeline.Window sig grid0 :=
  Pipeline.Window.ofSpec (Memref.whole main_v0) S8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S_, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S_, .f32⟩
  | .hbm, ⟨20, _⟩ => ⟨S16x64x128x128, .f32⟩
  | .hbm, ⟨21, _⟩ => ⟨S16x64x128x128, .f32⟩
  | .hbm, ⟨22, _⟩ => ⟨S16x64x128x128, .f32⟩
  | .hbm, ⟨23, _⟩ => ⟨S16x64x128x128, .f32⟩
  | .hbm, ⟨24, _⟩ => ⟨S16x64x128x128, .f32⟩
  | .hbm, ⟨25, _⟩ => ⟨S_, .f32⟩
  | .hbm, ⟨26, _⟩ => ⟨S16x64x128x128, .f32⟩
  | .hbm, ⟨27, _⟩ => ⟨S16x64x128x128, .f32⟩
  | .hbm, ⟨28, _⟩ => ⟨S16x64x128x128x1, .f32⟩
  | .hbm, ⟨29, _⟩ => ⟨S16x64x128x128x1, .f32⟩
  | .hbm, ⟨30, _⟩ => ⟨S16x64x128x128x2, .f32⟩
  | .hbm, ⟨31, _⟩ => ⟨S16x64x128x256, .f32⟩
  | .hbm, ⟨32, _⟩ => ⟨S16x64x128x128x1, .f32⟩
  | .hbm, ⟨33, _⟩ => ⟨S16x64x128x128x1, .f32⟩
  | .hbm, ⟨34, _⟩ => ⟨S16x64x128x128x2, .f32⟩
  | .hbm, ⟨35, _⟩ => ⟨S16x64x128x256, .f32⟩
  | .hbm, ⟨36, _⟩ => ⟨S16x64x128x1x256, .f32⟩
  | .hbm, ⟨37, _⟩ => ⟨S16x64x128x1x256, .f32⟩
  | .hbm, ⟨38, _⟩ => ⟨S16x64x128x2x256, .f32⟩
  | .hbm, ⟨39, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256

variable [Facts₀]

class Facts : Prop extends Facts₀ where

variable [Facts]
-- ==== Proof.Interleave.lean ====
/-
  Four arrays woven into one of twice the height and twice the width.

  Take four arrays `ee eo oe oo` of one shape `[…, 128, 128]`.  Lay `ee` and `eo` side by side ELEMENT BY ELEMENT
  along the last axis (give each a trailing axis of extent one, join the two along it, and flatten the pair into
  the last axis): column `s` of the result is column `s / 2` of `ee` when `s` is even and of `eo` when `s` is odd.
  Do the same with `oe` and `oo`.  Then lay the two results one above the other ROW BY ROW in the same way along
  the axis before the last: row `r` of the result is row `r / 2` of the first when `r` is even and of the second
  when `r` is odd.  So the entry at row `r`, column `s` of the woven array is the entry at row `r / 2`, column
  `s / 2` of ONE of the four arrays, chosen by the parities of `r` and `s` (`quarter`).

  This is proved twice, for the two spellings the two programs use: over blocks of 8 images (rank 3), where the
  axis of extent one is added by a shape cast, and over the whole batch (rank 4, `[16, 64, …]`), where it is added by a
  `broadcast_in_dim`.  Every step is one layout operation read at an index: a reshape keeps the row-major position, a
  join of two pieces of extent one along an axis reads the first piece at coordinate 0 and the second at coordinate 1.
  The element type plays no part.
-/
import Idealize.ShloMosaic.Lib.Pipeline.Value
import Idealize.ShloMosaic.Lib.ValueIdx

noncomputable section

namespace Cert.Interleave

open Idealize.ShloMosaic Idealize.ShloMosaic.ValueIdx

variable {α : Type}

/-- Which of four values the output position at row `r`, column `s` takes: by the parities of `r` and `s`. -/
def quarter (r s : Nat) (ee eo oe oo : α) : α :=
  if r % 2 = 0 then (if s % 2 = 0 then ee else eo) else (if s % 2 = 0 then oe else oo)

/-- The position of a quarter array (extent 128) that lies under position `s` of the doubled axis (extent 256). -/
abbrev under (s : Fin 256) : Fin 128 := ⟨s.val / 2, by have := s.isLt; omega⟩

/-! ## Blocks of 8 images: rank 3, the axis of extent one added by a shape cast -/

abbrev Q3 : Shape := ⟨3, ![8, 128, 128]⟩
abbrev Q3u : Shape := ⟨4, ![8, 128, 128, 1]⟩
abbrev Q3p : Shape := ⟨4, ![8, 128, 128, 2]⟩
abbrev R3 : Shape := ⟨3, ![8, 128, 256]⟩
abbrev R3u : Shape := ⟨4, ![8, 128, 1, 256]⟩
abbrev R3p : Shape := ⟨4, ![8, 128, 2, 256]⟩
abbrev O3 : Shape := ⟨3, ![8, 256, 256]⟩

/-- Two arrays side by side element by element along the last axis: column `s` reads column `s / 2` of the first
    when `s` is even, of the second when `s` is odd. -/
theorem colPair3 (x y : Q3.Idx → α) (h1 : Q3.ShapeCasts Q3u) (hc : Shape.Concatenates [Q3u, Q3u] Q3p 3)
    (h2 : Q3p.ShapeCasts R3) (a : Fin 8) (i : Fin 128) (s : Fin 256) :
    shapeCast R3 (concatenate Q3p 3 [⟨Q3u, shapeCast Q3u x h1⟩, ⟨Q3u, shapeCast Q3u y h1⟩] hc) h2 (ix3 a i s)
      = if s.val % 2 = 0 then x (ix3 a i (under s)) else y (ix3 a i (under s)) := by
  have hs := s.isLt
  -- the flattening reads the pair array at (a, i, s / 2, s % 2): the same row-major position
  refine (shapeCast_apply _ h2 (ix3 a i s) (ix4 a i (under s) ⟨s.val % 2, by omega⟩) ?_).trans ?_
  · rw [Shape.rowMajor_val_four, Shape.rowMajor_val_three]
    show ((a.val * 128 + i.val) * 128 + s.val / 2) * 2 + s.val % 2 = (a.val * 128 + i.val) * 256 + s.val
    omega
  -- a piece with a trailing axis of extent one, read at (a, i, j, 0), is the array at (a, i, j)
  have unit : ∀ z : Q3.Idx → α, shapeCast Q3u z h1 (ix4 a i (under s) (⟨0, by omega⟩ : Fin 1)) = z (ix3 a i (under s)) := fun z =>
    shapeCast_apply z h1 _ (ix3 a i (under s)) (by
      rw [Shape.rowMajor_val_three, Shape.rowMajor_val_four]
      show (a.val * 128 + i.val) * 128 + s.val / 2 = ((a.val * 128 + i.val) * 128 + s.val / 2) * 1 + 0
      omega)
  by_cases hp : s.val % 2 = 0
  · rw [if_pos hp]
    refine (concatenate_pair_apply_left _ _ _ hc _ rfl (ix4 a i (under s) (⟨0, by omega⟩ : Fin 1)) (fun b => ?_)).trans (unit x)
    match b with
    | ⟨0, _⟩ => rfl
    | ⟨1, _⟩ => rfl
    | ⟨2, _⟩ => rfl
    | ⟨3, _⟩ => show 0 = s.val % 2; omega
  · rw [if_neg hp]
    refine (concatenate_pair_apply_right _ _ _ hc _ rfl rfl (ix4 a i (under s) (⟨0, by omega⟩ : Fin 1)) (fun b hb => ?_) ?_).trans (unit y)
    · match b, hb with
      | ⟨0, _⟩, _ => rfl
      | ⟨1, _⟩, _ => rfl
      | ⟨2, _⟩, _ => rfl
      | ⟨3, _⟩, hb => exact absurd rfl hb
    · show 0 + 1 = s.val % 2; omega

/-- Two arrays one above the other row by row along the axis before the last: row `r` reads row `r / 2` of the
    first when `r` is even, of the second when `r` is odd. -/
theorem rowPair3 (t u : R3.Idx → α) (g1 : R3.ShapeCasts R3u) (gc : Shape.Concatenates [R3u, R3u] R3p 2)
    (g2 : R3p.ShapeCasts O3) (a : Fin 8) (r : Fin 256) (s : Fin 256) :
    shapeCast O3 (concatenate R3p 2 [⟨R3u, shapeCast R3u t g1⟩, ⟨R3u, shapeCast R3u u g1⟩] gc) g2 (ix3 a r s)
      = if r.val % 2 = 0 then t (ix3 a (under r) s) else u (ix3 a (under r) s) := by
  have hr := r.isLt
  refine (shapeCast_apply _ g2 (ix3 a r s) (ix4 a (under r) ⟨r.val % 2, by omega⟩ s) ?_).trans ?_
  · rw [Shape.rowMajor_val_four, Shape.rowMajor_val_three]
    show ((a.val * 128 + r.val / 2) * 2 + r.val % 2) * 256 + s.val = (a.val * 256 + r.val) * 256 + s.val
    omega
  have unit : ∀ z : R3.Idx → α, shapeCast R3u z g1 (ix4 a (under r) (⟨0, by omega⟩ : Fin 1) s) = z (ix3 a (under r) s) := fun z =>
    shapeCast_apply z g1 _ (ix3 a (under r) s) (by
      rw [Shape.rowMajor_val_three, Shape.rowMajor_val_four]
      show (a.val * 128 + r.val / 2) * 256 + s.val = ((a.val * 128 + r.val / 2) * 1 + 0) * 256 + s.val
      omega)
  by_cases hp : r.val % 2 = 0
  · rw [if_pos hp]
    refine (concatenate_pair_apply_left _ _ _ gc _ rfl (ix4 a (under r) (⟨0, by omega⟩ : Fin 1) s) (fun b => ?_)).trans (unit t)
    match b with
    | ⟨0, _⟩ => rfl
    | ⟨1, _⟩ => rfl
    | ⟨2, _⟩ => show 0 = r.val % 2; omega
    | ⟨3, _⟩ => rfl
  · rw [if_neg hp]
    refine (concatenate_pair_apply_right _ _ _ gc _ rfl rfl (ix4 a (under r) (⟨0, by omega⟩ : Fin 1) s) (fun b hb => ?_) ?_).trans (unit u)
    · match b, hb with
      | ⟨0, _⟩, _ => rfl
      | ⟨1, _⟩, _ => rfl
      | ⟨2, _⟩, hb => exact absurd rfl hb
      | ⟨3, _⟩, _ => rfl
    · show 0 + 1 = r.val % 2; omega

/-- The four arrays woven, over a block of 8 images: the entry at row `r`, column `s` is the entry at row `r / 2`,
    column `s / 2` of the array the parities of `r` and `s` choose. -/
theorem woven3 (ee eo oe oo : Q3.Idx → α) (h1 : Q3.ShapeCasts Q3u) (hc : Shape.Concatenates [Q3u, Q3u] Q3p 3)
    (h2 : Q3p.ShapeCasts R3) (g1 : R3.ShapeCasts R3u) (gc : Shape.Concatenates [R3u, R3u] R3p 2) (g2 : R3p.ShapeCasts O3)
    (a : Fin 8) (r s : Fin 256) :
    shapeCast O3 (concatenate R3p 2
        [⟨R3u, shapeCast R3u (shapeCast R3 (concatenate Q3p 3 [⟨Q3u, shapeCast Q3u ee h1⟩, ⟨Q3u, shapeCast Q3u eo h1⟩] hc) h2) g1⟩,
         ⟨R3u, shapeCast R3u (shapeCast R3 (concatenate Q3p 3 [⟨Q3u, shapeCast Q3u oe h1⟩, ⟨Q3u, shapeCast Q3u oo h1⟩] hc) h2) g1⟩] gc) g2
        (ix3 a r s)
      = quarter r.val s.val (ee (ix3 a (under r) (under s))) (eo (ix3 a (under r) (under s)))
          (oe (ix3 a (under r) (under s))) (oo (ix3 a (under r) (under s))) := by
  rw [rowPair3]
  unfold quarter
  by_cases hr : r.val % 2 = 0
  · rw [if_pos hr, if_pos hr, colPair3]
  · rw [if_neg hr, if_neg hr, colPair3]

/-! ## The whole batch: rank 4, the axis of extent one added by a `broadcast_in_dim` -/

abbrev P4 : Shape := ⟨4, ![16, 64, 128, 128]⟩
abbrev P4u : Shape := ⟨5, ![16, 64, 128, 128, 1]⟩
abbrev P4p : Shape := ⟨5, ![16, 64, 128, 128, 2]⟩
abbrev S4 : Shape := ⟨4, ![16, 64, 128, 256]⟩
abbrev S4u : Shape := ⟨5, ![16, 64, 128, 1, 256]⟩
abbrev S4p : Shape := ⟨5, ![16, 64, 128, 2, 256]⟩
abbrev U4 : Shape := ⟨4, ![16, 64, 256, 256]⟩

/-- Two arrays side by side element by element along the last axis, over the whole batch. -/
theorem colPair4 (x y : P4.Idx → α) (hb : P4.BroadcastsInDim P4u ![0, 1, 2, 3]) (hc : Shape.Concatenates [P4u, P4u] P4p 4)
    (h2 : P4p.ShapeCasts S4) (b : Fin 16) (c : Fin 64) (i : Fin 128) (s : Fin 256) :
    shapeCast S4 (concatenate P4p 4 [⟨P4u, broadcastInDim P4u ![0, 1, 2, 3] hb x⟩, ⟨P4u, broadcastInDim P4u ![0, 1, 2, 3] hb y⟩] hc) h2 (ix4 b c i s)
      = if s.val % 2 = 0 then x (ix4 b c i (under s)) else y (ix4 b c i (under s)) := by
  have hs := s.isLt
  refine (shapeCast_apply _ h2 (ix4 b c i s) (ix5 b c i (under s) ⟨s.val % 2, by omega⟩) ?_).trans ?_
  · rw [Shape.rowMajor_val_five, Shape.rowMajor_val_four]
    show (((b.val * 64 + c.val) * 128 + i.val) * 128 + s.val / 2) * 2 + s.val % 2 = ((b.val * 64 + c.val) * 128 + i.val) * 256 + s.val
    omega
  have unit : ∀ z : P4.Idx → α, broadcastInDim P4u ![0, 1, 2, 3] hb z (ix5 b c i (under s) (⟨0, by omega⟩ : Fin 1)) = z (ix4 b c i (under s)) := fun z =>
    broadcastInDim_apply _ hb z _ (ix4 b c i (under s)) (fun a => match a with
      | ⟨0, _⟩ => by show b.val = if (16 : Nat) = 1 then 0 else b.val; rw [if_neg (by decide)]
      | ⟨1, _⟩ => by show c.val = if (64 : Nat) = 1 then 0 else c.val; rw [if_neg (by decide)]
      | ⟨2, _⟩ => by show i.val = if (128 : Nat) = 1 then 0 else i.val; rw [if_neg (by decide)]
      | ⟨3, _⟩ => by show s.val / 2 = if (128 : Nat) = 1 then 0 else s.val / 2; rw [if_neg (by decide)])
  by_cases hp : s.val % 2 = 0
  · rw [if_pos hp]
    refine (concatenate_pair_apply_left _ _ _ hc _ rfl (ix5 b c i (under s) (⟨0, by omega⟩ : Fin 1)) (fun d => ?_)).trans (unit x)
    match d with
    | ⟨0, _⟩ => rfl
    | ⟨1, _⟩ => rfl
    | ⟨2, _⟩ => rfl
    | ⟨3, _⟩ => rfl
    | ⟨4, _⟩ => show 0 = s.val % 2; omega
  · rw [if_neg hp]
    refine (concatenate_pair_apply_right _ _ _ hc _ rfl rfl (ix5 b c i (under s) (⟨0, by omega⟩ : Fin 1)) (fun d hd => ?_) ?_).trans (unit y)
    · match d, hd with
      | ⟨0, _⟩, _ => rfl
      | ⟨1, _⟩, _ => rfl
      | ⟨2, _⟩, _ => rfl
      | ⟨3, _⟩, _ => rfl
      | ⟨4, _⟩, hd => exact absurd rfl hd
    · show 0 + 1 = s.val % 2; omega

/-- Two arrays one above the other row by row along the axis before the last, over the whole batch. -/
theorem rowPair4 (t u : S4.Idx → α) (gb : S4.BroadcastsInDim S4u ![0, 1, 2, 4]) (gc : Shape.Concatenates [S4u, S4u] S4p 3)
    (g2 : S4p.ShapeCasts U4) (b : Fin 16) (c : Fin 64) (r : Fin 256) (s : Fin 256) :
    shapeCast U4 (concatenate S4p 3 [⟨S4u, broadcastInDim S4u ![0, 1, 2, 4] gb t⟩, ⟨S4u, broadcastInDim S4u ![0, 1, 2, 4] gb u⟩] gc) g2 (ix4 b c r s)
      = if r.val % 2 = 0 then t (ix4 b c (under r) s) else u (ix4 b c (under r) s) := by
  have hr := r.isLt
  refine (shapeCast_apply _ g2 (ix4 b c r s) (ix5 b c (under r) ⟨r.val % 2, by omega⟩ s) ?_).trans ?_
  · rw [Shape.rowMajor_val_five, Shape.rowMajor_val_four]
    show (((b.val * 64 + c.val) * 128 + r.val / 2) * 2 + r.val % 2) * 256 + s.val = ((b.val * 64 + c.val) * 256 + r.val) * 256 + s.val
    omega
  have unit : ∀ z : S4.Idx → α, broadcastInDim S4u ![0, 1, 2, 4] gb z (ix5 b c (under r) (⟨0, by omega⟩ : Fin 1) s) = z (ix4 b c (under r) s) := fun z =>
    broadcastInDim_apply _ gb z _ (ix4 b c (under r) s) (fun a => match a with
      | ⟨0, _⟩ => by show b.val = if (16 : Nat) = 1 then 0 else b.val; rw [if_neg (by decide)]
      | ⟨1, _⟩ => by show c.val = if (64 : Nat) = 1 then 0 else c.val; rw [if_neg (by decide)]
      | ⟨2, _⟩ => by show r.val / 2 = if (128 : Nat) = 1 then 0 else r.val / 2; rw [if_neg (by decide)]
      | ⟨3, _⟩ => by show s.val = if (256 : Nat) = 1 then 0 else s.val; rw [if_neg (by decide)])
  by_cases hp : r.val % 2 = 0
  · rw [if_pos hp]
    refine (concatenate_pair_apply_left _ _ _ gc _ rfl (ix5 b c (under r) (⟨0, by omega⟩ : Fin 1) s) (fun d => ?_)).trans (unit t)
    match d with
    | ⟨0, _⟩ => rfl
    | ⟨1, _⟩ => rfl
    | ⟨2, _⟩ => rfl
    | ⟨3, _⟩ => show 0 = r.val % 2; omega
    | ⟨4, _⟩ => rfl
  · rw [if_neg hp]
    refine (concatenate_pair_apply_right _ _ _ gc _ rfl rfl (ix5 b c (under r) (⟨0, by omega⟩ : Fin 1) s) (fun d hd => ?_) ?_).trans (unit u)
    · match d, hd with
      | ⟨0, _⟩, _ => rfl
      | ⟨1, _⟩, _ => rfl
      | ⟨2, _⟩, _ => rfl
      | ⟨3, _⟩, hd => exact absurd rfl hd
      | ⟨4, _⟩, _ => rfl
    · show 0 + 1 = r.val % 2; omega

/-- The four arrays woven, over the whole batch. -/
theorem woven4 (ee eo oe oo : P4.Idx → α) (hb : P4.BroadcastsInDim P4u ![0, 1, 2, 3]) (hc : Shape.Concatenates [P4u, P4u] P4p 4)
    (h2 : P4p.ShapeCasts S4) (gb : S4.BroadcastsInDim S4u ![0, 1, 2, 4]) (gc : Shape.Concatenates [S4u, S4u] S4p 3)
    (g2 : S4p.ShapeCasts U4) (b : Fin 16) (c : Fin 64) (r s : Fin 256) :
    shapeCast U4 (concatenate S4p 3
        [⟨S4u, broadcastInDim S4u ![0, 1, 2, 4] gb (shapeCast S4 (concatenate P4p 4 [⟨P4u, broadcastInDim P4u ![0, 1, 2, 3] hb ee⟩, ⟨P4u, broadcastInDim P4u ![0, 1, 2, 3] hb eo⟩] hc) h2)⟩,
         ⟨S4u, broadcastInDim S4u ![0, 1, 2, 4] gb (shapeCast S4 (concatenate P4p 4 [⟨P4u, broadcastInDim P4u ![0, 1, 2, 3] hb oe⟩, ⟨P4u, broadcastInDim P4u ![0, 1, 2, 3] hb oo⟩] hc) h2)⟩] gc) g2
        (ix4 b c r s)
      = quarter r.val s.val (ee (ix4 b c (under r) (under s))) (eo (ix4 b c (under r) (under s)))
          (oe (ix4 b c (under r) (under s))) (oo (ix4 b c (under r) (under s))) := by
  rw [rowPair4]
  unfold quarter
  by_cases hr : r.val % 2 = 0
  · rw [if_pos hr, if_pos hr, colPair4]
  · rw [if_neg hr, if_neg hr, colPair4]

end Cert.Interleave

end
-- ==== Proof.HaarCell.lean ====
/-
  One step of the inverse Haar wavelet transform in two dimensions, entry by entry.

  Four coefficient arrays of one shape `[…, 128, 128]` — the approximation `a` and the details `h` (along rows), `v`
  (along columns) and `d` (diagonal) — give an image of shape `[…, 256, 256]`: the 2 × 2 cell of the image over
  position `(i, j)` of the coefficients holds

      (a + v + h + d) / 2   (a − v + h − d) / 2
      (a + v − h − d) / 2   (a − v − h + d) / 2

  each sum taken from left to right, the halving a product with the constant one half.  So the entry at row `r`,
  column `s` of the image is the combination the parities of `r` and `s` choose, of the four coefficients at
  `(r / 2, s / 2)` (`cell`).  Both programs compute exactly these combinations in exactly this order with the same
  constant, so no law of arithmetic is needed to compare them, and nothing is asked of the coefficients: they
  may be any extended reals.

  `image` is the result over the whole batch `[16, 64, …]`; `imageFlat` is the same with the two batch axes
  flattened into one of extent 1024; reshaping the arguments, taking `imageFlat`, and reshaping back is `image`
  (`image_of_flat`), because a reshape keeps row-major positions and the two trailing axes are untouched.
-/
import proofs.«124882_j80736795230662_1_alg».proof.Proof.Interleave
import Idealize.ShloMosaic.PureOps.Ideal

noncomputable section

namespace Cert.Haar

open Idealize.ShloMosaic Idealize.ShloMosaic.ValueIdx Cert.Interleave

/-- One half: what the word `0x3F000000` denotes. Both programs print this same word, so it is never evaluated. -/
abbrev half : EReal := Ideal.ofBits .f32 0x3F000000#32

/-- The image's entry at row `r`, column `s` from the four coefficients under it. -/
def cell (r s : Nat) (a h v d : EReal) : EReal :=
  quarter r s ((a + v + h + d) * half) ((a - v + h - d) * half) ((a + v - h - d) * half) ((a - v - h + d) * half)

/-- The coefficients and the image with the two batch axes flattened into one. -/
abbrev Flat : Shape := ⟨3, ![1024, 128, 128]⟩
abbrev FlatOut : Shape := ⟨3, ![1024, 256, 256]⟩

/-- The image of the whole batch. -/
def image (x lh hl hh : P4.Idx → EReal) : U4.Idx → EReal := fun i =>
  cell (i 2).val (i 3).val (x (ix4 (i 0) (i 1) (under (i 2)) (under (i 3)))) (lh (ix4 (i 0) (i 1) (under (i 2)) (under (i 3))))
    (hl (ix4 (i 0) (i 1) (under (i 2)) (under (i 3)))) (hh (ix4 (i 0) (i 1) (under (i 2)) (under (i 3))))

/-- The image over the flattened batch. -/
def imageFlat (x lh hl hh : Flat.Idx → EReal) : FlatOut.Idx → EReal := fun j =>
  cell (j 1).val (j 2).val (x (ix3 (j 0) (under (j 1)) (under (j 2)))) (lh (ix3 (j 0) (under (j 1)) (under (j 2))))
    (hl (ix3 (j 0) (under (j 1)) (under (j 2)))) (hh (ix3 (j 0) (under (j 1)) (under (j 2))))

/-- Flatten the batch axes of the coefficients, take the image, and restore the batch axes: the image of the batch.
    Image `(b, c)` of the batch is image `64 b + c` of the flattened one, rows and columns as they are. -/
theorem image_of_flat (x lh hl hh : P4.Idx → EReal) (f : P4.ShapeCasts Flat) (g : FlatOut.ShapeCasts U4) :
    shapeCast U4 (imageFlat (shapeCast Flat x f) (shapeCast Flat lh f) (shapeCast Flat hl f) (shapeCast Flat hh f)) g
      = image x lh hl hh := by
  funext i
  obtain ⟨b, c, r, s, rfl⟩ : ∃ (b : Fin 16) (c : Fin 64) (r s : Fin 256), i = ix4 b c r s := ⟨i 0, i 1, i 2, i 3, eq_ix4 i⟩
  have hb := b.isLt
  have hc := c.isLt
  refine (shapeCast_apply _ g (ix4 b c r s) (ix3 (⟨b.val * 64 + c.val, by omega⟩ : Fin 1024) r s) ?_).trans ?_
  · rw [Shape.rowMajor_val_three, Shape.rowMajor_val_four]
    show ((b.val * 64 + c.val) * 256 + r.val) * 256 + s.val = ((b.val * 64 + c.val) * 256 + r.val) * 256 + s.val
    rfl
  have e : ∀ z : P4.Idx → EReal,
      shapeCast Flat z f (ix3 (⟨b.val * 64 + c.val, by omega⟩ : Fin 1024) (under r) (under s)) = z (ix4 b c (under r) (under s)) := fun z =>
    shapeCast_apply z f _ (ix4 b c (under r) (under s)) (by
      rw [Shape.rowMajor_val_four, Shape.rowMajor_val_three]
      show ((b.val * 64 + c.val) * 128 + r.val / 2) * 128 + s.val / 2 = ((b.val * 64 + c.val) * 128 + r.val / 2) * 128 + s.val / 2
      rfl)
  show cell r.val s.val (shapeCast Flat x f (ix3 (⟨b.val * 64 + c.val, by omega⟩ : Fin 1024) (under r) (under s)))
      (shapeCast Flat lh f (ix3 (⟨b.val * 64 + c.val, by omega⟩ : Fin 1024) (under r) (under s)))
      (shapeCast Flat hl f (ix3 (⟨b.val * 64 + c.val, by omega⟩ : Fin 1024) (under r) (under s)))
      (shapeCast Flat hh f (ix3 (⟨b.val * 64 + c.val, by omega⟩ : Fin 1024) (under r) (under s)))
    = cell r.val s.val (x (ix4 b c (under r) (under s))) (lh (ix4 b c (under r) (under s)))
      (hl (ix4 b c (under r) (under s))) (hh (ix4 b c (under r) (under s)))
  rw [e x, e lh, e hl, e hh]

end Cert.Haar

end
-- ==== Proof.KernelCell.lean ====
/-
  What the kernel's body computes for one block of 8 images, entry by entry.

  The body loads the four coefficient blocks, forms the four combinations elementwise, and weaves them: the
  entry at row `r`, column `s` of image `a` of the block is the inverse Haar step's entry (`Haar.cell`) of the
  four coefficients at `(a, r / 2, s / 2)`.  The operands arrive in the order approximation, row detail, column
  detail, diagonal detail, and the body adds the column detail first: the order `cell` adds in.
-/
import proofs.«124882_j80736795230662_1_alg».proof.Proof.Gen.KernelIdeal.Skeleton
import proofs.«124882_j80736795230662_1_alg».proof.Proof.HaarCell

noncomputable section

namespace Cert.KernelIdeal.Hand

open Idealize.ShloMosaic Idealize.ShloMosaic.ValueIdx Cert.KernelIdeal Cert.KernelIdeal.Gen Cert.Interleave Cert.Haar

/-- The body's one stored value at an index: the inverse Haar entry of the loaded blocks' coefficients under it. -/
theorem pay_apply (v0 v2 v4 v6 : Vec Ideal S8x128x128 .f32) (j : S8x256x256.Idx) :
    k0_pay1 (F := Ideal) v0 v2 v4 v6 j
      = cell (j 1).val (j 2).val (v0 (ix3 (j 0) (under (j 1)) (under (j 2)))) (v2 (ix3 (j 0) (under (j 1)) (under (j 2))))
          (v4 (ix3 (j 0) (under (j 1)) (under (j 2)))) (v6 (ix3 (j 0) (under (j 1)) (under (j 2)))) := by
  obtain ⟨a, r, s, rfl⟩ : ∃ (a : Fin 8) (r s : Fin 256), j = ix3 a r s := ⟨j 0, j 1, j 2, eq_ix3 j⟩
  unfold k0_pay1
  refine (woven3 _ _ _ _ _ _ _ _ _ _ a r s).trans ?_
  simp only [shapeCast_self]
  rfl

end Cert.KernelIdeal.Hand

end
-- ==== Proof.KernelImage.lean ====
/-
  The kernel's result array.

  The pipeline runs the body at 128 grid points; point `t` takes rows `8 t … 8 t + 7` of the four flattened
  coefficient arrays (`[1024, 128, 128]`) and writes rows `8 t … 8 t + 7` of the flattened image (`[1024, 256, 256]`).
  Since the body's entry at image `a` of a block depends only on the coefficients of image `a` of the input blocks,
  what point `t` writes back is ITS block of one whole array, `Haar.imageFlat` of the coefficient arrays; the blocks
  tile the array (row `n` is in point `n / 8`'s), so after the run the array is `imageFlat`.  Around the region the
  host only reshapes: the batch axes `[16, 64]` flattened to `1024` before, restored after, which turns `imageFlat`
  of the flattened arguments into `Haar.image` of the arguments (`Haar.image_of_flat`).
-/
import proofs.«124882_j80736795230662_1_alg».proof.Proof.Gen.KernelIdeal.Frame
import proofs.«124882_j80736795230662_1_alg».proof.Proof.KernelCell
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.Interleave Cert.Haar

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: every window's block index is the output's on the batch axis and
    zero on the two image axes, and the output's stays below 128. -/
theorem idx_facts : ∀ t : Fin cfg0.N,
    (win0_0.index t (0 : Fin 3) = win0_4.index t (0 : Fin 3) ∧ win0_0.index t (1 : Fin 3) = 0 ∧ win0_0.index t (2 : Fin 3) = 0)
    ∧ (win0_1.index t (0 : Fin 3) = win0_4.index t (0 : Fin 3) ∧ win0_1.index t (1 : Fin 3) = 0 ∧ win0_1.index t (2 : Fin 3) = 0)
    ∧ (win0_2.index t (0 : Fin 3) = win0_4.index t (0 : Fin 3) ∧ win0_2.index t (1 : Fin 3) = 0 ∧ win0_2.index t (2 : Fin 3) = 0)
    ∧ (win0_3.index t (0 : Fin 3) = win0_4.index t (0 : Fin 3) ∧ win0_3.index t (1 : Fin 3) = 0 ∧ win0_3.index t (2 : Fin 3) = 0)
    ∧ (win0_4.index t (1 : Fin 3) = 0 ∧ win0_4.index t (2 : Fin 3) = 0 ∧ win0_4.index t (0 : Fin 3) < 128) :=
  (by decide +kernel : ∀ t : Fin grid0.N, _)

/-- Every block of 8 images is some point's. -/
theorem idx_onto : ∀ q : Fin 128, ∃ t : Fin cfg0.N, win0_4.index t (0 : Fin 3) = q.val :=
  (by decide +kernel : ∀ q : Fin 128, ∃ t : Fin grid0.N, win0_4.index t (0 : Fin 3) = q.val)

/-- Input window 0's block at point `t` is rows `8 t … 8 t + 7` of its flattened array. -/
theorem iblk0_apply (c : Dev nD) (t : Fin cfg0.N) (y : S8x128x128.Idx) (k : S1024x128x128.Idx)
    (hk0 : (k 0).val = win0_4.index t (0 : Fin 3) * 8 + (y 0).val) (hk1 : (k 1).val = (y 1).val) (hk2 : (k 2).val = (y 2).val) :
    (iblk m c 0 t : Vec Ideal S8x128x128 .f32) y = (V m c main_v0 : Vec Ideal S1024x128x128 .f32) k := by
  obtain ⟨e0, e1, e2⟩ := (idx_facts t).1
  unfold iblk
  rw [View.read_apply]
  show V m c main_v0 _ = V m c main_v0 _
  congr 1
  funext a
  apply Fin.ext
  match a with
  | ⟨0, _⟩ => show win0_0.index t (0 : Fin 3) * 8 + 1 * (y 0).val = (k 0).val; omega
  | ⟨1, _⟩ => show win0_0.index t (1 : Fin 3) * 128 + 1 * (y 1).val = (k 1).val; omega
  | ⟨2, _⟩ => show win0_0.index t (2 : Fin 3) * 128 + 1 * (y 2).val = (k 2).val; omega

/-- Input window 1's block at point `t` is rows `8 t … 8 t + 7` of its flattened array. -/
theorem iblk1_apply (c : Dev nD) (t : Fin cfg0.N) (y : S8x128x128.Idx) (k : S1024x128x128.Idx)
    (hk0 : (k 0).val = win0_4.index t (0 : Fin 3) * 8 + (y 0).val) (hk1 : (k 1).val = (y 1).val) (hk2 : (k 2).val = (y 2).val) :
    (iblk m c 1 t : Vec Ideal S8x128x128 .f32) y = (V m c main_v1 : Vec Ideal S1024x128x128 .f32) k := by
  obtain ⟨e0, e1, e2⟩ := (idx_facts t).2.1
  unfold iblk
  rw [View.read_apply]
  show V m c main_v1 _ = V m c main_v1 _
  congr 1
  funext a
  apply Fin.ext
  match a with
  | ⟨0, _⟩ => show win0_1.index t (0 : Fin 3) * 8 + 1 * (y 0).val = (k 0).val; omega
  | ⟨1, _⟩ => show win0_1.index t (1 : Fin 3) * 128 + 1 * (y 1).val = (k 1).val; omega
  | ⟨2, _⟩ => show win0_1.index t (2 : Fin 3) * 128 + 1 * (y 2).val = (k 2).val; omega

/-- Input window 2's block at point `t` is rows `8 t … 8 t + 7` of its flattened array. -/
theorem iblk2_apply (c : Dev nD) (t : Fin cfg0.N) (y : S8x128x128.Idx) (k : S1024x128x128.Idx)
    (hk0 : (k 0).val = win0_4.index t (0 : Fin 3) * 8 + (y 0).val) (hk1 : (k 1).val = (y 1).val) (hk2 : (k 2).val = (y 2).val) :
    (iblk m c 2 t : Vec Ideal S8x128x128 .f32) y = (V m c main_v2 : Vec Ideal S1024x128x128 .f32) k := by
  obtain ⟨e0, e1, e2⟩ := (idx_facts t).2.2.1
  unfold iblk
  rw [View.read_apply]
  show V m c main_v2 _ = V m c main_v2 _
  congr 1
  funext a
  apply Fin.ext
  match a with
  | ⟨0, _⟩ => show win0_2.index t (0 : Fin 3) * 8 + 1 * (y 0).val = (k 0).val; omega
  | ⟨1, _⟩ => show win0_2.index t (1 : Fin 3) * 128 + 1 * (y 1).val = (k 1).val; omega
  | ⟨2, _⟩ => show win0_2.index t (2 : Fin 3) * 128 + 1 * (y 2).val = (k 2).val; omega

/-- Input window 3's block at point `t` is rows `8 t … 8 t + 7` of its flattened array. -/
theorem iblk3_apply (c : Dev nD) (t : Fin cfg0.N) (y : S8x128x128.Idx) (k : S1024x128x128.Idx)
    (hk0 : (k 0).val = win0_4.index t (0 : Fin 3) * 8 + (y 0).val) (hk1 : (k 1).val = (y 1).val) (hk2 : (k 2).val = (y 2).val) :
    (iblk m c 3 t : Vec Ideal S8x128x128 .f32) y = (V m c main_v3 : Vec Ideal S1024x128x128 .f32) k := by
  obtain ⟨e0, e1, e2⟩ := (idx_facts t).2.2.2.1
  unfold iblk
  rw [View.read_apply]
  show V m c main_v3 _ = V m c main_v3 _
  congr 1
  funext a
  apply Fin.ext
  match a with
  | ⟨0, _⟩ => show win0_3.index t (0 : Fin 3) * 8 + 1 * (y 0).val = (k 0).val; omega
  | ⟨1, _⟩ => show win0_3.index t (1 : Fin 3) * 128 + 1 * (y 1).val = (k 1).val; omega
  | ⟨2, _⟩ => show win0_3.index t (2 : Fin 3) * 128 + 1 * (y 2).val = (k 2).val; omega

/-- A block of `imageFlat`: if four blocks are rows `8 q … 8 q + 7` of four arrays, the inverse Haar entry of the blocks
    at block index `j` is `imageFlat` of the arrays at the array index `i` over it (row `8 q + j₀`, the same image
    coordinates). -/
theorem block_of_imageFlat (A H W D : S1024x128x128.Idx → EReal) (q : Nat) (xa xh xv xd : S8x128x128.Idx → EReal)
    (ha : ∀ (y : S8x128x128.Idx) (k : S1024x128x128.Idx), (k 0).val = q * 8 + (y 0).val → (k 1).val = (y 1).val → (k 2).val = (y 2).val → xa y = A k)
    (hh : ∀ (y : S8x128x128.Idx) (k : S1024x128x128.Idx), (k 0).val = q * 8 + (y 0).val → (k 1).val = (y 1).val → (k 2).val = (y 2).val → xh y = H k)
    (hv : ∀ (y : S8x128x128.Idx) (k : S1024x128x128.Idx), (k 0).val = q * 8 + (y 0).val → (k 1).val = (y 1).val → (k 2).val = (y 2).val → xv y = W k)
    (hd : ∀ (y : S8x128x128.Idx) (k : S1024x128x128.Idx), (k 0).val = q * 8 + (y 0).val → (k 1).val = (y 1).val → (k 2).val = (y 2).val → xd y = D k)
    (j : S8x256x256.Idx) (i : S1024x256x256.Idx)
    (hi0 : (i 0).val = q * 8 + (j 0).val) (hi1 : (i 1).val = (j 1).val) (hi2 : (i 2).val = (j 2).val) :
    cell (j 1).val (j 2).val (xa (ix3 (j 0) (under (j 1)) (under (j 2)))) (xh (ix3 (j 0) (under (j 1)) (under (j 2))))
        (xv (ix3 (j 0) (under (j 1)) (under (j 2)))) (xd (ix3 (j 0) (under (j 1)) (under (j 2))))
      = imageFlat A H W D i := by
  unfold imageFlat
  have k1 : (i 1).val / 2 = (j 1).val / 2 := by rw [hi1]
  have k2 : (i 2).val / 2 = (j 2).val / 2 := by rw [hi2]
  rw [ha _ (ix3 (i 0) (under (i 1)) (under (i 2))) hi0 k1 k2, hh _ (ix3 (i 0) (under (i 1)) (under (i 2))) hi0 k1 k2,
    hv _ (ix3 (i 0) (under (i 1)) (under (i 2))) hi0 k1 k2, hd _ (ix3 (i 0) (under (i 1)) (under (i 2))) hi0 k1 k2, hi1, hi2]

/-- What point `t` writes back is its block of `imageFlat` of the four flattened arrays as the region finds them. -/
theorem flushed_eq (c : Dev nD) (t : Fin cfg0.N) :
    (dats m 0 c).flushed 4 t
      = ((cfg0.win 4).blk t).view.read (Elt Ideal)
          (imageFlat (V m c main_v0 : Vec Ideal S1024x128x128 .f32) (V m c main_v1 : Vec Ideal S1024x128x128 .f32)
            (V m c main_v2 : Vec Ideal S1024x128x128 .f32) (V m c main_v3 : Vec Ideal S1024x128x128 .f32)) := by
  show (cfg0.win 4).cut (grid0.coords t) ((dats m 0 c).after 4 t) = _
  rw [after0_4]
  unfold out0_4
  rw [View.canon_unit_zero hz]
  simp only [View.ld_unit_zero (S := S8x128x128) hz]
  obtain ⟨-, -, -, -, o1, o2, o0⟩ := idx_facts t
  funext j
  show k0_pay1 (F := Ideal) (iblk m c 0 t) (iblk m c 1 t) (iblk m c 2 t) (iblk m c 3 t) j
      = imageFlat (V m c main_v0 : Vec Ideal S1024x128x128 .f32) (V m c main_v1 : Vec Ideal S1024x128x128 .f32)
          (V m c main_v2 : Vec Ideal S1024x128x128 .f32) (V m c main_v3 : Vec Ideal S1024x128x128 .f32) (((cfg0.win 4).blk t).view.emb j)
  refine (pay_apply _ _ _ _ j).trans ?_
  exact block_of_imageFlat _ _ _ _ (win0_4.index t (0 : Fin 3)) _ _ _ _
    (iblk0_apply m c t) (iblk1_apply m c t) (iblk2_apply m c t) (iblk3_apply m c t) j _
    (by show win0_4.index t (0 : Fin 3) * 8 + 1 * (j 0).val = win0_4.index t (0 : Fin 3) * 8 + (j 0).val; omega)
    (by show win0_4.index t (1 : Fin 3) * 256 + 1 * (j 1).val = (j 1).val; omega)
    (by show win0_4.index t (2 : Fin 3) * 256 + 1 * (j 2).val = (j 2).val; omega)

/-- An index of the flattened image is in point `t`'s block iff each coordinate is in the block's range on its axis. -/
theorem mem_blk (t : Fin cfg0.N) (i : S1024x256x256.Idx) :
    i ∈ ((cfg0.win 4).blk t).view.set ↔ ∀ a : Fin 3, win0_4.index t a * S8x256x256.size a ≤ (i a).val ∧ (i a).val < win0_4.index t a * S8x256x256.size a + S8x256x256.size a := by
  show i ∈ ((View.whole main_v4).slice (win0_4.rect t)).set ↔ _
  rw [View.set_slice_whole, Rect.mem_set_unit]
  exact Iff.rfl

/-- The blocks tile the flattened image: image `n` is in the block of the point whose block index is `n / 8`. -/
theorem cover (i : S1024x256x256.Idx) : ∃ t : Fin cfg0.N, (cfg0.win 4).flush t = true ∧ i ∈ ((cfg0.win 4).blk t).view.set := by
  have h0 : (i 0).val < 1024 := (i 0).isLt
  have h1 : (i 1).val < 256 := (i 1).isLt
  have h2 : (i 2).val < 256 := (i 2).isLt
  obtain ⟨t, ht⟩ := idx_onto ⟨(i 0).val / 8, by omega⟩
  have q0 : win0_4.index t (0 : Fin 3) = (i 0).val / 8 := ht
  obtain ⟨-, -, -, -, q1, q2, -⟩ := idx_facts t
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- The flattened image after the run: `imageFlat` of the four flattened arrays as the region finds them. -/
theorem final (c : Dev nD) :
    (dats m 0 c).arrAt 4 cfg0.N
      = imageFlat (V m c main_v0 : Vec Ideal S1024x128x128 .f32) (V m c main_v1 : Vec Ideal S1024x128x128 .f32)
          (V m c main_v2 : Vec Ideal S1024x128x128 .f32) (V m c main_v3 : Vec Ideal S1024x128x128 .f32) :=
  (dats m 0 c).arrAt_eq_of_cover 4 _ (fun t _ => flushed_eq m c t) cover

/-- The region finds window 0's array at argument 0 with its batch axes flattened. -/
theorem V_main_v0 (c : Dev nD) :
    (V m c main_v0 : Vec Ideal S1024x128x128 .f32)
      = shapeCast S1024x128x128 (m ((c : Thread nD τ).loc main_arg0)) shapeCasts_S16x64x128x128_S1024x128x128 := by
  show StableHlo.after hostOps0 (fun b => m (c, b)) (Proc.devRef .tc main_v0) = _
  after_results
  rfl

/-- The region finds window 1's array at argument 1 with its batch axes flattened. -/
theorem V_main_v1 (c : Dev nD) :
    (V m c main_v1 : Vec Ideal S1024x128x128 .f32)
      = shapeCast S1024x128x128 (m ((c : Thread nD τ).loc main_arg1)) shapeCasts_S16x64x128x128_S1024x128x128 := by
  show StableHlo.after hostOps0 (fun b => m (c, b)) (Proc.devRef .tc main_v1) = _
  after_results
  rfl

/-- The region finds window 2's array at argument 2 with its batch axes flattened. -/
theorem V_main_v2 (c : Dev nD) :
    (V m c main_v2 : Vec Ideal S1024x128x128 .f32)
      = shapeCast S1024x128x128 (m ((c : Thread nD τ).loc main_arg2)) shapeCasts_S16x64x128x128_S1024x128x128 := by
  show StableHlo.after hostOps0 (fun b => m (c, b)) (Proc.devRef .tc main_v2) = _
  after_results
  rfl

/-- The region finds window 3's array at argument 3 with its batch axes flattened. -/
theorem V_main_v3 (c : Dev nD) :
    (V m c main_v3 : Vec Ideal S1024x128x128 .f32)
      = shapeCast S1024x128x128 (m ((c : Thread nD τ).loc main_arg3)) shapeCasts_S16x64x128x128_S1024x128x128 := by
  show StableHlo.after hostOps0 (fun b => m (c, b)) (Proc.devRef .tc main_v3) = _
  after_results
  rfl

/-- After the region the host restores the batch axes of the flattened image. -/
theorem tail_eq (c : Dev nD) :
    Pipeline.afterTail₀ cfgs (dats m) 0 (V0 m) [hostOps1] c main_v5
      = shapeCast S16x64x256x256 ((dats m 0 c).arrAt 4 cfg0.N) shapeCasts_S1024x256x256_S16x64x256x256 := by
  unfold Pipeline.afterTail₀
  show StableHlo.after hostOps1 _ (Proc.devRef .tc main_v5) = _
  after_results
  have hw := Pipeline.withArrays_arr spec0 launch0.win.arr_inj c (V0 m c) (fun w => (dats m 0 c).arrAt w cfg0.N) 4
  exact congrArg (fun z : Vec Ideal S1024x256x256 .f32 => shapeCast S16x64x256x256 z shapeCasts_S1024x256x256_S16x64x256x256) hw

/-- The kernel's result: the inverse Haar image of its four arguments. -/
theorem result_eq (c : Dev nD) :
    Pipeline.afterTail₀ cfgs (dats m) 0 (V0 m) [hostOps1] c main_v5
      = image (m ((c.tc : Thread nD τ).loc main_arg0)) (m ((c.tc : Thread nD τ).loc main_arg1))
          (m ((c.tc : Thread nD τ).loc main_arg2)) (m ((c.tc : Thread nD τ).loc main_arg3)) := by
  rw [tail_eq, final, V_main_v0, V_main_v1, V_main_v2, V_main_v3]
  exact image_of_flat _ _ _ _ _ _

/-- The run, read: every weakly fair execution ends with the result at the inverse Haar image of the arguments and the
    arguments unchanged. -/
theorem run : θ_run defs (onTc (τ := τ) (main (F := Ideal))) ⟨m, fun _ => 0, ρ⟩ fun r => ∀ c : Dev nD,
      r.2.mem ((c.tc : Thread nD τ).loc main_v5)
        = image (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.ReferenceImage.lean ====
/-
  The reference computes the inverse Haar step's image.

  Its program forms the four combinations over the whole batch, each a left-to-right sum or difference of the
  four arguments times the constant one half (`halved`), lays them side by side in pairs along the last axis
  (`pairCols`) and the two results one above the other along the axis before it (`pairRows`); the axis of extent one
  each pairing needs is added by a `broadcast_in_dim`.  Read at an index this is the weave of `Interleave.woven4`:
  the entry at row `r`, column `s` of image `(b, c)` is `Haar.cell` of the four arguments at `(b, c, r / 2, s / 2)` —
  the second argument the row detail, the third the column detail, which the program adds first.
-/
import proofs.«124882_j80736795230662_1_alg».proof.Proof.Gen.ReferenceIdeal
import proofs.«124882_j80736795230662_1_alg».proof.Proof.HaarCell

noncomputable section

namespace Cert.ReferenceIdeal.Hand

open Idealize.ShloMosaic Idealize.ShloMosaic.ValueIdx Cert.ReferenceIdeal Cert.ReferenceIdeal.Gen Cert.Interleave Cert.Haar

/-- A combination of the arguments times one half, as the program spells it: the constant broadcast to the batch's shape. -/
abbrev halved (z : FVec Ideal S16x64x128x128 .f32) : FVec Ideal S16x64x128x128 .f32 :=
  mulf z (broadcastInDim S16x64x128x128 ![] bcast_S_S16x64x128x128 (constant S_ .f32 0x3F000000#32))

/-- Two arrays side by side element by element along the last axis, as the program spells it. -/
abbrev pairCols (x y : FVec Ideal S16x64x128x128 .f32) : FVec Ideal S16x64x128x256 .f32 :=
  shapeCast _ (concatenate S16x64x128x128x2 4
    [⟨S16x64x128x128x1, broadcastInDim S16x64x128x128x1 ![0, 1, 2, 3] bcast_S16x64x128x128_S16x64x128x128x1_0_1_2_3 x⟩,
     ⟨S16x64x128x128x1, broadcastInDim S16x64x128x128x1 ![0, 1, 2, 3] bcast_S16x64x128x128_S16x64x128x128x1_0_1_2_3 y⟩]
    concatenates_S16x64x128x128x1_S16x64x128x128x1_S16x64x128x128x2_d4) shapeCasts_S16x64x128x128x2_S16x64x128x256

/-- Two arrays one above the other row by row along the axis before the last, as the program spells it. -/
abbrev pairRows (t u : FVec Ideal S16x64x128x256 .f32) : FVec Ideal S16x64x256x256 .f32 :=
  shapeCast _ (concatenate S16x64x128x2x256 3
    [⟨S16x64x128x1x256, broadcastInDim S16x64x128x1x256 ![0, 1, 2, 4] bcast_S16x64x128x256_S16x64x128x1x256_0_1_2_4 t⟩,
     ⟨S16x64x128x1x256, broadcastInDim S16x64x128x1x256 ![0, 1, 2, 4] bcast_S16x64x128x256_S16x64x128x1x256_0_1_2_4 u⟩]
    concatenates_S16x64x128x1x256_S16x64x128x1x256_S16x64x128x2x256_d3) shapeCasts_S16x64x128x2x256_S16x64x256x256

/-- The reference's result, as a function of its four arguments, is `Haar.image` of them. -/
theorem ref_is_image (x0 x1 x2 x3 : FVec Ideal S16x64x128x128 .f32) :
    pairRows
      (pairCols (halved (addf (addf (addf x0 x2) x1) x3)) (halved (subf (addf (subf x0 x2) x1) x3)))
      (pairCols (halved (subf (subf (addf x0 x2) x1) x3)) (halved (addf (subf (subf x0 x2) x1) x3)))
      = image x0 x1 x2 x3 := by
  funext i
  obtain ⟨b, c, r, s, rfl⟩ : ∃ (b : Fin 16) (c : Fin 64) (r s : Fin 256), i = ix4 b c r s := ⟨i 0, i 1, i 2, i 3, eq_ix4 i⟩
  refine (woven4 _ _ _ _ _ _ _ _ _ _ b c r s).trans ?_
  rfl

end Cert.ReferenceIdeal.Hand

end
-- ==== Proof.lean ====
/-
  One step of the inverse Haar wavelet transform in two dimensions: a pipelined kernel against its plain reference.

  Both programs take four coefficient arrays `[16, 64, 128, 128]` — approximation, row detail, column detail, diagonal
  detail — and return the image `[16, 64, 256, 256]` whose 2 × 2 cell over each coefficient position holds the four
  combinations `(a ± v ± h ± d) / 2` (Proof/HaarCell.lean: `Haar.cell`, `Haar.image`).  The reference forms the
  combinations over the whole batch and weaves them with broadcasts, joins and reshapes; the kernel flattens the batch to
  1024 images, runs a body over 128 blocks of 8 images that forms the same combinations in the same order with the same
  constant and weaves them with shape casts and joins, and restores the batch axes.

  The proof reads both at an index.  Proof/Interleave.lean: the weave, in either spelling, puts at row `r`, column `s`
  the entry at `(r / 2, s / 2)` of the array the parities of `r` and `s` choose.  Proof/KernelCell.lean: so the body's
  stored block is `Haar.cell` of the loaded blocks.  Proof/KernelImage.lean: each point writes its block of one array,
  the blocks tile it, and the host's reshapes around the region turn it into `Haar.image` of the arguments.
  Proof/ReferenceImage.lean: the reference's composed term is `Haar.image` of the arguments too.  Every entry is the same
  expression of the same four inputs on both sides, so no law of arithmetic — and no finiteness of the inputs — is used.
  The idealization rewrote nothing, so `preserves` is `True`; the kernels' frames are the generated ones, and the
  reference's frame is its run with the result dropped.
-/
import proofs.«124882_j80736795230662_1_alg».proof.Defs
import proofs.«124882_j80736795230662_1_alg».proof.Proof.Gen.Kernel
import proofs.«124882_j80736795230662_1_alg».proof.Proof.Gen.Kernel.Frame
import proofs.«124882_j80736795230662_1_alg».proof.Proof.Gen.KernelIdeal
import proofs.«124882_j80736795230662_1_alg».proof.Proof.Gen.KernelIdeal.Frame
import proofs.«124882_j80736795230662_1_alg».proof.Proof.Gen.ReferenceIdeal
import proofs.«124882_j80736795230662_1_alg».proof.Proof.Gen.Pre_finite_inputs
import proofs.«124882_j80736795230662_1_alg».proof.Proof.KernelImage
import proofs.«124882_j80736795230662_1_alg».proof.Proof.ReferenceRun
import proofs.«124882_j80736795230662_1_alg».proof.Proof.ReferenceImage
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.RunCopy.run (F := Ideal) m ρ)

/-- The idealization rewrote no operation. -/
theorem preserves : Cert.preserves_Kernel_KernelIdeal := trivial

/-- From memories that agree on the four arguments both programs end with the inverse Haar image of those
    arguments as their result, and with the arguments unchanged. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RunCopy.run (F := Ideal) m' ρ')
  rw [(hagree c).1, (hagree c).2.1, (hagree c).2.2.1, (hagree c).2.2.2]
  exact Cert.ReferenceIdeal.Hand.ref_is_image _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
